-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x512 : Shape := ⟨2, ![512, 512]⟩
abbrev S1x512 : Shape := ⟨2, ![1, 512]⟩

abbrev nBuf : Space → Nat
  | .hbm => 11
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v31 : BitVec 1 := Scalar.cmpi .eq arg2 c7_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x4096.size a
  hwx0_7 : ∀ i : grid0.Coords, EltTy.bits .f32 = 32 ∨ (Rect.block (s := S8192x4096) S1024x512.size (cc0_transform_7 i) (hinb0_7 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one run of the kernel body leaves behind, as values.

  The body keeps a 1024 × 512 accumulator across the eight points of a run over the inner blocks. At the first
  point of a run it stores the zero block and then the zero block plus this point's product; at every later point
  it stores what the point before left plus this point's product; at the last point it also stores, into the
  output block, the accumulator it has just written plus the sampled bias row. Each of these is ONE store that
  covers its whole buffer, so what the buffer holds afterwards is that store's value.
-/
import proofs.«102193_j4930622456479_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem origin : (![0, 0] : Fin 2 → Nat) = fun _ => 0 := funext fun a => by fin_cases a <;> rfl

variable (c : Dev nD) (i : grid0.Coords)
  (arg3 : Memref sig .tc .vmem S1024x512 .f32) (harg3 : arg3.IsWhole)
  (arg4 : Memref sig .tc .vmem S512x512 .f32) (harg4 : arg4.IsWhole)
  (arg5 : Memref sig .tc .vmem S512x512 .f32) (harg5 : arg5.IsWhole)
  (arg6 : Memref sig .tc .vmem S512x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1024x512 .f32) (harg10 : arg10.IsWhole)
  (arg11 : Memref sig .tc .vmem S1024x512 .f32) (harg11 : arg11.IsWhole)
  (x0 : Vec F S1024x512 .f32) (x1 x2 x3 : Vec F S512x512 .f32) (x4 x5 x6 : Vec F S1x512 .f32)

/-- A later point of a run (neither first nor last): the accumulator ends at what the point before left, plus
    this point's product of the activation block with the sampled weight block. -/
theorem acc_mid (hc0 : ¬cond0_0 i) (hc1 : ¬cond0_1 i) (xs0 : Vec F S1024x512 .f32) :
    sout0_B_0 c i arg3 harg3 arg4 harg4 arg5 harg5 arg6 harg6 arg7 harg7 arg8 harg8 arg9 harg9 arg10 harg10 arg11 harg11
        hc0 hc1 x0 x1 x2 x3 x4 x5 x6 xs0
      = k0_pay2 x1 x2 x3 x0 xs0 := by
  unfold sout0_B_0
  rw [View.read_writes_eq_canon _ _ _ (scover0_B_0 c i arg3 harg3 arg4 harg4 arg5 harg5 arg6 harg6 arg7 harg7 arg8 harg8
    arg9 harg9 arg10 harg10 arg11 harg11 hc0 hc1 x0 x1 x2 x3 x4 x5 x6 xs0)]
  unfold kernelRun0_B
  dsimp only
  sl_unfold_words
  rw [View.canon_unit_zero origin]
  simp only [View.readAt_eq_ld, harg3.read_unread, harg4.read_unread, harg5.read_unread, harg6.read_unread,
    harg11.read_unread, View.ld_unit_zero (S := S1024x512) origin, View.ld_unit_zero (S := S512x512) origin]

/-- The last point of a run: the accumulator is updated exactly as at a middle point. -/
theorem acc_last (hc0 : ¬cond0_0 i) (hc1 : cond0_1 i) (xs0 : Vec F S1024x512 .f32) :
    sout0_C_0 c i arg3 harg3 arg4 harg4 arg5 harg5 arg6 harg6 arg7 harg7 arg8 harg8 arg9 harg9 arg10 harg10 arg11 harg11
        hc0 hc1 x0 x1 x2 x3 x4 x5 x6 xs0
      = k0_pay2 x1 x2 x3 x0 xs0 := by
  unfold sout0_C_0
  rw [View.read_writes_eq_canon _ _ _ (scover0_C_0 c i arg3 harg3 arg4 harg4 arg5 harg5 arg6 harg6 arg7 harg7 arg8 harg8
    arg9 harg9 arg10 harg10 arg11 harg11 hc0 hc1 x0 x1 x2 x3 x4 x5 x6 xs0)]
  unfold kernelRun0_C
  dsimp only
  sl_unfold_words
  rw [View.canon_unit_zero origin]
  simp only [View.readAt_eq_ld, harg3.read_unread, harg4.read_unread, harg5.read_unread, harg6.read_unread,
    harg11.read_unread, View.ld_unit_zero (S := S1024x512) origin, View.ld_unit_zero (S := S512x512) origin]

/-- The last point of a run: the output block is the accumulator this point has just written, plus the sampled
    bias row added to every row. -/
theorem out_last (hc0 : ¬cond0_0 i) (hc1 : cond0_1 i) (xs0 : Vec F S1024x512 .f32) :
    out0_C_7 c i arg3 harg3 arg4 harg4 arg5 harg5 arg6 harg6 arg7 harg7 arg8 harg8 arg9 harg9 arg10 harg10 arg11 harg11
        hc0 hc1 x0 x1 x2 x3 x4 x5 x6 xs0
      = k0_pay3 x4 x5 x6 (k0_pay2 x1 x2 x3 x0 xs0) := by
  unfold out0_C_7
  rw [View.read_writes_eq_canon _ _ _ (cover0_C_7 c i arg3 harg3 arg4 harg4 arg5 harg5 arg6 harg6 arg7 harg7 arg8 harg8
    arg9 harg9 arg10 harg10 arg11 harg11 hc0 hc1 x0 x1 x2 x3 x4 x5 x6 xs0)]
  unfold kernelRun0_C
  dsimp only
  sl_unfold_words
  rw [View.canon_unit_zero origin]
  simp only [View.readAt_eq_ld, harg3.read_unread, harg4.read_unread, harg5.read_unread, harg6.read_unread,
    harg7.read_unread, harg8.read_unread, harg9.read_unread, harg11.read_unread,
    View.readCov_unit_zero (S := S1024x512) _ origin,
    View.ld_unit_zero (S := S1024x512) origin, View.ld_unit_zero (S := S512x512) origin,
    View.ld_unit_zero (S := S1x512) origin]

/-- The first point of a run: the accumulator is reset to the zero block and then updated, so it ends at the zero
    block plus this point's product, whatever it held before. -/
theorem acc_first (hc0 : cond0_0 i) (hc1 : ¬cond0_1 i) :
    sout0_A_0 c i arg3 harg3 arg4 harg4 arg5 harg5 arg6 harg6 arg7 harg7 arg8 harg8 arg9 harg9 arg10 harg10 arg11 harg11
        hc0 hc1 x0 x1 x2 x3 x4 x5 x6
      = k0_pay2 x1 x2 x3 x0 (k0_pay1 (F := F)) := by
  unfold sout0_A_0
  rw [View.read_writes_eq_canon _ _ _ (scover0_A_0 c i arg3 harg3 arg4 harg4 arg5 harg5 arg6 harg6 arg7 harg7 arg8 harg8
    arg9 harg9 arg10 harg10 arg11 harg11 hc0 hc1 x0 x1 x2 x3 x4 x5 x6)]
  unfold kernelRun0_A
  dsimp only
  sl_unfold_words
  rw [View.canon_cons_unit_zero (S := S1024x512) origin, View.readCov_unit_zero (S := S1024x512) _ origin]
  simp only [View.readAt_eq_ld, harg3.read_unread, harg4.read_unread, harg5.read_unread, harg6.read_unread,
    View.ld_unit_zero (S := S1024x512) origin, View.ld_unit_zero (S := S512x512) origin]

end Cert.KernelIdeal.Pieces

end
-- ==== Proof.SampledLinear.lean ====
/-
  The layer both programs compute, entry by entry, on the extended reals.

  A parameter is SAMPLED from a mean, a pre-scale and a noise entry: mean + softplus(pre-scale) · noise, where
  softplus(ρ) = max(ρ, 0) + log(1 + e^(-|ρ|)). The layer's output at (t, o) is the inner product, over the 4096 input
  features i, of row t of the activations with row o of the sampled weights, plus the sampled bias at o:
      ∑ i, x(t, i) · W(o, i) + b(o).
  Nothing below needs an entry to be finite: the only law used between the two programs is that a sum of 4096
  terms is the sum of its 8 consecutive runs of 512, which holds in every commutative monoid.
-/
import Idealize.ShloMosaic.Lib.ValueIdx
import Idealize.ShloMosaic.PureOps.Ideal.Laws

noncomputable section

open scoped BigOperators

namespace Cert.SampledLinear

open Idealize.ShloMosaic Idealize.ShloMosaic.ValueIdx

/-- The extended real the all-zero word denotes. -/
abbrev zw : EReal := Ideal.ofBits .f32 0x00000000#32

/-- softplus of one entry as the kernel spells it: max(ρ, 0) + log1p(exp(0 − |ρ − 0|)), behind a guard
    "ρ − 0 differs from itself" whose other branch is ρ + 0. No extended real differs from itself, so the guard
    never fires; it is kept so that both programs' entries are this term as they stand. -/
def softplus (r : EReal) : EReal :=
  Scalar.select (Ideal.cmp .one (r - zw) (r - zw)) (r + zw)
    (max r zw + Ideal.log1p (Ideal.exp (zw - max (r - zw) (-(r - zw)))))

/-- The host spells the same entry with the unordered form of the guard and with a negation where the kernel
    subtracts from zero: on the extended reals the two guards are one comparison, and 0 − a is −a. -/
theorem softplus_host (r : EReal) :
    Scalar.select (Ideal.cmp .une (r - zw) (r - zw)) (r + zw)
      (max r zw + Ideal.log1p (Ideal.exp (-(max (r - zw) (-(r - zw)))))) = softplus r := by
  have h0 : zw - max (r - zw) (-(r - zw)) = -(max (r - zw) (-(r - zw))) := by
    rw [show zw = (0 : EReal) from Ideal.ofBits_zero_f32, zero_sub]
  unfold softplus
  rw [h0]
  rfl

/-- A parameter sampled from its mean, its pre-scale and a noise entry. -/
def sample (mu rho eps : EReal) : EReal := mu + softplus rho * eps

/-- The sampled weight matrix: entry (o, i) from the three weight arrays' entries (o, i). -/
def weight (wmu wrho ew : (⟨2, ![4096, 4096]⟩ : Shape).Idx → EReal) : (⟨2, ![4096, 4096]⟩ : Shape).Idx → EReal :=
  fun i => sample (wmu i) (wrho i) (ew i)

/-- The sampled bias: entry o from the three bias arrays' entries o. -/
def bias (bmu brho eb : (⟨1, ![4096]⟩ : Shape).Idx → EReal) : (⟨1, ![4096]⟩ : Shape).Idx → EReal :=
  fun i => sample (bmu i) (brho i) (eb i)

/-- The linear layer: at (t, o), row t of x against row o of W over the 4096 input features, plus b(o). -/
def linear (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun j => (∑ i : Fin 4096, x (ix2 (j 0) i) * W (ix2 (j 1) i)) + b (ix1 (j 1))

/-- The whole layer as ONE function of the seven argument arrays. -/
def layer (x : (⟨2, ![8192, 4096]⟩ : Shape).Idx → EReal) (wmu wrho : (⟨2, ![4096, 4096]⟩ : Shape).Idx → EReal)
    (bmu brho : (⟨1, ![4096]⟩ : Shape).Idx → EReal) (ew : (⟨2, ![4096, 4096]⟩ : Shape).Idx → EReal)
    (eb : (⟨1, ![4096]⟩ : Shape).Idx → EReal) : (⟨2, ![8192, 4096]⟩ : Shape).Idx → EReal :=
  linear x (weight wmu wrho ew) (bias bmu brho eb)

/-! ## A long sum as the sum of its consecutive runs -/

/-- The sum of the first m · n terms of a sequence is the sum, over n consecutive runs, of each run's m terms. -/
theorem sum_range_runs {β : Type*} [AddCommMonoid β] (g : ℕ → β) (m : ℕ) :
    ∀ n : ℕ, ∑ i ∈ Finset.range (m * n), g i = ∑ s ∈ Finset.range n, ∑ k ∈ Finset.range m, g (m * s + k)
  | 0 => by simp
  | n + 1 => by
    rw [Nat.mul_succ, Finset.sum_range_add, sum_range_runs g m n, Finset.sum_range_succ]

/-- A sum over the 4096 input features is the sum over 8 runs of the 512 features of each run. -/
theorem sum_features {β : Type*} [AddCommMonoid β] (g : ℕ → β) :
    ∑ i : Fin 4096, g i.val = ∑ s ∈ Finset.range 8, ∑ k : Fin 512, g (512 * s + k.val) := by
  rw [Fin.sum_univ_eq_sum_range g 4096, show (4096 : ℕ) = 512 * 8 from rfl, sum_range_runs g 512 8]
  refine Finset.sum_congr rfl fun s _ => ?_
  exact (Fin.sum_univ_eq_sum_range (fun k => g (512 * s + k)) 512).symm

end Cert.SampledLinear

end
-- ==== Proof.LibRowsDot.lean ====
/-
  A two-dimensional contraction of ROWS AGAINST ROWS, read at an index: the left operand is rows × inner, the right
  operand is columns × inner (it is contracted on its LAST axis, so the product is "left times right transposed"
  with no transpose materialised), the result rows × columns, no batch axis.

  On the extended reals the matrix unit's product into a zero accumulator and the host's dot product of such
  operands are both, at (r, c), the sum over the inner index k of left(r, k) · right(c, k). Generic in the three
  extents.
-/
import Idealize.ShloMosaic.Lib.ValueIdx
import Idealize.ShloMosaic.PureOps.Ideal.Laws

noncomputable section

open scoped BigOperators

namespace Cert.RowsDot

open Idealize.ShloMosaic Idealize.ShloMosaic.ValueIdx

variable {M K N : Nat}

/-- The left operand is read on its row axis at the result's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The left operand is read on its inner axis at the contraction index. -/
theorem lhs_inner (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand is read on its row axis at the result's COLUMN. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The right operand is read on its inner axis at the contraction index. -/
theorem rhs_inner (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum re-indexed by the inner coordinate: both operands are read along their rows. -/
theorem sum_contr (A : (⟨2, ![M, K]⟩ : Shape).Idx → EReal) (B : (⟨2, ![N, K]⟩ : Shape).Idx → EReal)
    (j : (⟨2, ![M, N]⟩ : Shape).Idx) :
    (∑ q : (DotDims.transposedRhs M K N).contr.Idx,
        A ((DotDims.transposedRhs M K N).lhsIdx j q) * B ((DotDims.transposedRhs M K N).rhsIdx j q))
      = ∑ k : Fin K, A (ix2 (j 0) k) * B (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => exact lhs_row _ _
      | ⟨1, _⟩ => exact (lhs_inner _ _).trans hk)
  have er : (DotDims.transposedRhs M K N).rhsIdx j ((contrEquiv1 (DotDims.transposedRhs M K N) K rfl rfl).symm k)
      = ix2 (j 1) k :=
    funext fun a => Fin.ext (by
      match a with
      | ⟨0, _⟩ => exact rhs_row _ _
      | ⟨1, _⟩ => exact (rhs_inner _ _).trans hk)
  exact congrArg₂ (· * ·) (congrArg A el) (congrArg B er)

/-- The matrix unit's product into the zero accumulator at a result index: the sum of the rows' products. -/
theorem matmul_zero_apply {φ₁ φ₂ : FTy} (prec : Option ContractPrecision)
    (A : FVec Ideal (⟨2, ![M, K]⟩ : Shape) φ₁) (B : FVec Ideal (⟨2, ![N, K]⟩ : Shape) φ₂)
    (j : (⟨2, ![M, N]⟩ : Shape).Idx) :
    FloatOps.matmul (DotDims.transposedRhs M K N) prec A B (constant (⟨2, ![M, N]⟩ : Shape) .f32 0x00000000#32) j
      = ∑ k : Fin K, A (ix2 (j 0) k) * B (ix2 (j 1) k) :=
  (Ideal.matmul_constant_zero_apply (DotDims.transposedRhs M K N) prec A B j).trans (sum_contr A B j)

/-- The host's dot product of the same operands at a result index: the same sum. -/
theorem dotGeneral_apply {φ₁ φ₂ : FTy} (prec : Option ContractPrecision) (sched : HostSchedule)
    (A : FVec Ideal (⟨2, ![M, K]⟩ : Shape) φ₁) (B : FVec Ideal (⟨2, ![N, K]⟩ : Shape) φ₂)
    (j : (⟨2, ![M, N]⟩ : Shape).Idx) :
    FloatOps.dotGeneral (DotDims.transposedRhs M K N) prec sched A B j
      = ∑ k : Fin K, A (ix2 (j 0) k) * B (ix2 (j 1) k) :=
  (Ideal.dotGeneral_apply (DotDims.transposedRhs M K N) prec sched A B j).trans (sum_contr A B j)

end Cert.RowsDot

end
-- ==== Proof.Payloads.lean ====
/-
  The body's three stored values, read at one entry, on the extended reals.

  A format change is the identity there, and the matrix unit's product into a zero accumulator is the plain sum
  of products along the two operands' rows. So at entry (r, q) of a 1024 × 512 block:
    * the reset value is the zero word's value;
    * the accumulator update is  acc(r, q) + ∑ k < 512, x(r, k) · W(q, k)  with W(q, k) the weight SAMPLED from the
      three weight blocks' entries (q, k);
    * the output value is  acc(r, q) + b(q)  with b(q) the bias sampled from the three bias rows' entries (0, q).
-/
import proofs.«102193_j4930622456479_1_alg».proof.Proof.Gen.KernelIdeal.Skeleton
import proofs.«102193_j4930622456479_1_alg».proof.Proof.SampledLinear
import proofs.«102193_j4930622456479_1_alg».proof.Proof.LibRowsDot
import Idealize.ShloMosaic.Lib.Pipeline.Value
import Idealize.ShloMosaic.Lib.ValueLayout

noncomputable section

open scoped BigOperators

namespace Cert.KernelIdeal.Payloads

open Cert.KernelIdeal Cert.KernelIdeal.Gen Cert.SampledLinear Idealize.ShloMosaic Idealize.ShloMosaic.ValueIdx

/-- The kernel's contraction record is the library's "rows against rows" dimension numbers at these extents. -/
theorem dot_eq : dot_S1024x512_S512x512_S1024x512_1_1_0_0_n_n = DotDims.transposedRhs 1024 512 512 := rfl

/-- The block of weights sampled entry by entry from a mean block, a pre-scale block and a noise block. -/
def sampledBlock {S : Shape} (mu rho eps : Vec Ideal S .f32) : Vec Ideal S .f32 :=
  fun j => sample (mu j) (rho j) (eps j)

/-- The reset value at any entry: the zero word's value. -/
theorem pay1_apply (j : S1024x512.Idx) : k0_pay1 (F := Ideal) j = zw := by
  unfold k0_pay1
  exact congrFun (shapeCast_self _ _) j

/-- The accumulator update at entry (r, q). -/
theorem pay2_apply (wmu wrho ew : Vec Ideal S512x512 .f32) (x acc : Vec Ideal S1024x512 .f32) (r : Fin 1024) (q : Fin 512) :
    k0_pay2 (F := Ideal) wmu wrho ew x acc (ix2 r q)
      = acc (ix2 r q) + ∑ k : Fin 512, x (ix2 r k) * sampledBlock wmu wrho ew (ix2 q k) := by
  unfold k0_pay2
  refine (congrFun (shapeCast_self _ _) (ix2 r q)).trans ?_
  refine congrArg (acc (ix2 r q) + ·) ?_
  exact RowsDot.matmul_zero_apply (M := 1024) (K := 512) (N := 512) none
    (truncf .bf16 x bitsLt_bf16_f32) (truncf .bf16 (sampledBlock wmu wrho ew) bitsLt_bf16_f32) (ix2 r q)

/-- The output value at entry (r, q). -/
theorem pay3_apply (bmu brho eb : Vec Ideal S1x512 .f32) (acc : Vec Ideal S1024x512 .f32) (r : Fin 1024) (q : Fin 512) :
    k0_pay3 (F := Ideal) bmu brho eb acc (ix2 r q)
      = acc (ix2 r q) + sampledBlock bmu brho eb (ix2 (0 : Fin 1) q) := by
  unfold k0_pay3
  refine congrArg (acc (ix2 r q) + ·) ?_
  refine (broadcastTo_1b_ab_apply _ broadcasts_S1x512_S1024x512 r q).trans ?_
  simp only [shapeCast_self]
  rfl

end Cert.KernelIdeal.Payloads

end
-- ==== Proof.Blocks.lean ====
/-
  Where each block sits in its array.

  The grid is 8 × 8 × 8: point t has row tile t / 64, column tile (t / 8) mod 8 and inner tile t mod 8. The
  activation block at t is rows 1024·(t/64) …, inner columns 512·(t mod 8) … of x; a weight block is rows
  512·((t/8) mod 8) …, inner columns 512·(t mod 8) … of its 4096 × 4096 array; a bias block is columns
  512·((t/8) mod 8) … of its one-row array; the output block is rows 1024·(t/64) …, columns 512·((t/8) mod 8) ….
  The one-row bias arrays are the length-4096 bias arguments reshaped, so their entry (0, q) is the argument's entry q.
-/
import proofs.«102193_j4930622456479_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps in closed form, decided over the 512 grid points. -/
theorem tiles : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = t.val / 8 % 8 ∧ win0_2.index t (1 : Fin 2) = t.val % 8
    ∧ win0_3.index t (0 : Fin 2) = t.val / 8 % 8 ∧ win0_3.index t (1 : Fin 2) = t.val % 8
    ∧ win0_4.index t (0 : Fin 2) = 0 ∧ win0_4.index t (1 : Fin 2) = t.val / 8 % 8
    ∧ win0_5.index t (0 : Fin 2) = 0 ∧ win0_5.index t (1 : Fin 2) = t.val / 8 % 8
    ∧ win0_6.index t (0 : Fin 2) = 0 ∧ win0_6.index t (1 : Fin 2) = t.val / 8 % 8
    ∧ win0_7.index t (0 : Fin 2) = t.val / 64 ∧ win0_7.index t (1 : Fin 2) = t.val / 8 % 8 :=
  (by decide +kernel : ∀ t : Fin grid0.N, _)

/-- The input blocks at a point, each at its literal shape. -/
abbrev xblk (c : Dev nD) (t : Fin cfg0.N) : Vec Ideal S1024x512 .f32 := iblk m c 0 t
abbrev wmublk (c : Dev nD) (t : Fin cfg0.N) : Vec Ideal S512x512 .f32 := iblk m c 1 t
abbrev wrhoblk (c : Dev nD) (t : Fin cfg0.N) : Vec Ideal S512x512 .f32 := iblk m c 2 t
abbrev ewblk (c : Dev nD) (t : Fin cfg0.N) : Vec Ideal S512x512 .f32 := iblk m c 3 t
abbrev bmublk (c : Dev nD) (t : Fin cfg0.N) : Vec Ideal S1x512 .f32 := iblk m c 4 t
abbrev brhoblk (c : Dev nD) (t : Fin cfg0.N) : Vec Ideal S1x512 .f32 := iblk m c 5 t
abbrev ebblk (c : Dev nD) (t : Fin cfg0.N) : Vec Ideal S1x512 .f32 := iblk m c 6 t

/-- The arrays the windows stage, as the region finds them, each at its literal shape. -/
abbrev xarr (c : Dev nD) : Vec Ideal S8192x4096 .f32 := V m c main_arg0
abbrev wmuarr (c : Dev nD) : Vec Ideal S4096x4096 .f32 := V m c main_arg1
abbrev wrhoarr (c : Dev nD) : Vec Ideal S4096x4096 .f32 := V m c main_arg2
abbrev ewarr (c : Dev nD) : Vec Ideal S4096x4096 .f32 := V m c main_arg5
abbrev bmurow (c : Dev nD) : Vec Ideal S1x4096 .f32 := V m c main_v0
abbrev brhorow (c : Dev nD) : Vec Ideal S1x4096 .f32 := V m c main_v1
abbrev ebrow (c : Dev nD) : Vec Ideal S1x4096 .f32 := V m c main_v2

/-- The activation block's entry (r, k) is x at row 1024·(t/64) + r, column 512·(t mod 8) + k. -/
theorem xblk_apply (c : Dev nD) (t : Fin cfg0.N) (r : Fin 1024) (k : Fin 512) (i : S8192x4096.Idx)
    (h0 : (i 0).val = 1024 * (t.val / 64) + r.val) (h1 : (i 1).val = 512 * (t.val % 8) + k.val) :
    xblk m c t (ix2 r k) = xarr m c i := by
  obtain ⟨e00, e01, -⟩ := tiles t
  show V m c main_arg0 (((cfg0.win 0).blk t).view.emb (ix2 r k)) = V m c main_arg0 i
  refine congrArg (V m c main_arg0) (funext fun a => Fin.ext ?_)
  match a with
  | ⟨0, _⟩ => show win0_0.index t (0 : Fin 2) * 1024 + 1 * r.val = (i 0).val; omega
  | ⟨1, _⟩ => show win0_0.index t (1 : Fin 2) * 512 + 1 * k.val = (i 1).val; omega

/-- A weight-mean block's entry (q, k) is the array at row 512·((t/8) mod 8) + q, column 512·(t mod 8) + k. -/
theorem wmublk_apply (c : Dev nD) (t : Fin cfg0.N) (q k : Fin 512) (i : S4096x4096.Idx)
    (h0 : (i 0).val = 512 * (t.val / 8 % 8) + q.val) (h1 : (i 1).val = 512 * (t.val % 8) + k.val) :
    wmublk m c t (ix2 q k) = wmuarr m c i := by
  obtain ⟨-, -, e10, e11, -⟩ := tiles t
  show V m c main_arg1 (((cfg0.win 1).blk t).view.emb (ix2 q k)) = V m c main_arg1 i
  refine congrArg (V m c main_arg1) (funext fun a => Fin.ext ?_)
  match a with
  | ⟨0, _⟩ => show win0_1.index t (0 : Fin 2) * 512 + 1 * q.val = (i 0).val; omega
  | ⟨1, _⟩ => show win0_1.index t (1 : Fin 2) * 512 + 1 * k.val = (i 1).val; omega

/-- The same for the weight pre-scale block. -/
theorem wrhoblk_apply (c : Dev nD) (t : Fin cfg0.N) (q k : Fin 512) (i : S4096x4096.Idx)
    (h0 : (i 0).val = 512 * (t.val / 8 % 8) + q.val) (h1 : (i 1).val = 512 * (t.val % 8) + k.val) :
    wrhoblk m c t (ix2 q k) = wrhoarr m c i := by
  obtain ⟨-, -, -, -, e20, e21, -⟩ := tiles t
  show V m c main_arg2 (((cfg0.win 2).blk t).view.emb (ix2 q k)) = V m c main_arg2 i
  refine congrArg (V m c main_arg2) (funext fun a => Fin.ext ?_)
  match a with
  | ⟨0, _⟩ => show win0_2.index t (0 : Fin 2) * 512 + 1 * q.val = (i 0).val; omega
  | ⟨1, _⟩ => show win0_2.index t (1 : Fin 2) * 512 + 1 * k.val = (i 1).val; omega

/-- The same for the weight noise block. -/
theorem ewblk_apply (c : Dev nD) (t : Fin cfg0.N) (q k : Fin 512) (i : S4096x4096.Idx)
    (h0 : (i 0).val = 512 * (t.val / 8 % 8) + q.val) (h1 : (i 1).val = 512 * (t.val % 8) + k.val) :
    ewblk m c t (ix2 q k) = ewarr m c i := by
  obtain ⟨-, -, -, -, -, -, e30, e31, -⟩ := tiles t
  show V m c main_arg5 (((cfg0.win 3).blk t).view.emb (ix2 q k)) = V m c main_arg5 i
  refine congrArg (V m c main_arg5) (funext fun a => Fin.ext ?_)
  match a with
  | ⟨0, _⟩ => show win0_3.index t (0 : Fin 2) * 512 + 1 * q.val = (i 0).val; omega
  | ⟨1, _⟩ => show win0_3.index t (1 : Fin 2) * 512 + 1 * k.val = (i 1).val; omega

/-- A bias-mean block's entry (0, q) is the one-row array at column 512·((t/8) mod 8) + q. -/
theorem bmublk_apply (c : Dev nD) (t : Fin cfg0.N) (q : Fin 512) (i : S1x4096.Idx)
    (h1 : (i 1).val = 512 * (t.val / 8 % 8) + q.val) :
    bmublk m c t (ix2 (0 : Fin 1) q) = bmurow m c i := by
  obtain ⟨-, -, -, -, -, -, -, -, e40, e41, -⟩ := tiles t
  show V m c main_v0 (((cfg0.win 4).blk t).view.emb (ix2 (0 : Fin 1) q)) = V m c main_v0 i
  refine congrArg (V m c main_v0) (funext fun a => Fin.ext ?_)
  match a with
  | ⟨0, _⟩ => show win0_4.index t (0 : Fin 2) * 1 + 1 * 0 = (i 0).val; have := idx2_lt0 i; omega
  | ⟨1, _⟩ => show win0_4.index t (1 : Fin 2) * 512 + 1 * q.val = (i 1).val; omega

/-- The same for the bias pre-scale block. -/
theorem brhoblk_apply (c : Dev nD) (t : Fin cfg0.N) (q : Fin 512) (i : S1x4096.Idx)
    (h1 : (i 1).val = 512 * (t.val / 8 % 8) + q.val) :
    brhoblk m c t (ix2 (0 : Fin 1) q) = brhorow m c i := by
  obtain ⟨-, -, -, -, -, -, -, -, -, -, e50, e51, -⟩ := tiles t
  show V m c main_v1 (((cfg0.win 5).blk t).view.emb (ix2 (0 : Fin 1) q)) = V m c main_v1 i
  refine congrArg (V m c main_v1) (funext fun a => Fin.ext ?_)
  match a with
  | ⟨0, _⟩ => show win0_5.index t (0 : Fin 2) * 1 + 1 * 0 = (i 0).val; have := idx2_lt0 i; omega
  | ⟨1, _⟩ => show win0_5.index t (1 : Fin 2) * 512 + 1 * q.val = (i 1).val; omega

/-- The same for the bias noise block. -/
theorem ebblk_apply (c : Dev nD) (t : Fin cfg0.N) (q : Fin 512) (i : S1x4096.Idx)
    (h1 : (i 1).val = 512 * (t.val / 8 % 8) + q.val) :
    ebblk m c t (ix2 (0 : Fin 1) q) = ebrow m c i := by
  obtain ⟨-, -, -, -, -, -, -, -, -, -, -, -, e60, e61, -⟩ := tiles t
  show V m c main_v2 (((cfg0.win 6).blk t).view.emb (ix2 (0 : Fin 1) q)) = V m c main_v2 i
  refine congrArg (V m c main_v2) (funext fun a => Fin.ext ?_)
  match a with
  | ⟨0, _⟩ => show win0_6.index t (0 : Fin 2) * 1 + 1 * 0 = (i 0).val; have := idx2_lt0 i; omega
  | ⟨1, _⟩ => show win0_6.index t (1 : Fin 2) * 512 + 1 * q.val = (i 1).val; omega

/-! ## The one-row bias arrays are the bias arguments reshaped -/

/-- Entry (0, n) of the reshaped bias mean is entry n of the argument. -/
theorem bmurow_apply (c : Dev nD) (i : S1x4096.Idx) (n : S4096.Idx) (h : (n 0).val = (i 1).val) :
    bmurow m c i = m ((c : Thread nD τ).loc main_arg3) n := by
  have e : (V m c main_v0 : S1x4096.Idx → EReal)
      = shapeCast S1x4096 (m ((c : Thread nD τ).loc main_arg3)) shapeCasts_S4096_S1x4096 := by
    dsimp only [Gen.V, Gen.hostOps0]; after_results; rfl
  show (V m c main_v0 : S1x4096.Idx → EReal) i = _
  rw [e]
  refine shapeCast_apply _ _ i n ?_
  rw [Shape.rowMajor_val_one, Shape.rowMajor_val_two]
  have := idx2_lt0 i
  show (n 0).val = (i 0).val * 4096 + (i 1).val
  omega

/-- Entry (0, n) of the reshaped bias pre-scale is entry n of the argument. -/
theorem brhorow_apply (c : Dev nD) (i : S1x4096.Idx) (n : S4096.Idx) (h : (n 0).val = (i 1).val) :
    brhorow m c i = m ((c : Thread nD τ).loc main_arg4) n := by
  have e : (V m c main_v1 : S1x4096.Idx → EReal)
      = shapeCast S1x4096 (m ((c : Thread nD τ).loc main_arg4)) shapeCasts_S4096_S1x4096 := by
    dsimp only [Gen.V, Gen.hostOps0]; after_results; rfl
  show (V m c main_v1 : S1x4096.Idx → EReal) i = _
  rw [e]
  refine shapeCast_apply _ _ i n ?_
  rw [Shape.rowMajor_val_one, Shape.rowMajor_val_two]
  have := idx2_lt0 i
  show (n 0).val = (i 0).val * 4096 + (i 1).val
  omega

/-- Entry (0, n) of the reshaped bias noise is entry n of the argument. -/
theorem ebrow_apply (c : Dev nD) (i : S1x4096.Idx) (n : S4096.Idx) (h : (n 0).val = (i 1).val) :
    ebrow m c i = m ((c : Thread nD τ).loc main_arg6) n := by
  have e : (V m c main_v2 : S1x4096.Idx → EReal)
      = shapeCast S1x4096 (m ((c : Thread nD τ).loc main_arg6)) shapeCasts_S4096_S1x4096 := by
    dsimp only [Gen.V, Gen.hostOps0]; after_results; rfl
  show (V m c main_v2 : S1x4096.Idx → EReal) i = _
  rw [e]
  refine shapeCast_apply _ _ i n ?_
  rw [Shape.rowMajor_val_one, Shape.rowMajor_val_two]
  have := idx2_lt0 i
  show (n 0).val = (i 0).val * 4096 + (i 1).val
  omega

end Cert.KernelIdeal.Blocks

end
-- ==== Proof.Fold.lean ====
/-
  The accumulator over a run of eight points, in whole-array terms.

  Write R = 1024·(n/64) + r and Q = 512·((n/8) mod 8) + q for the array row and column that entry (r, q) of the
  block at point n stands for. Point n adds to the accumulator, at (r, q), the inner products over its own 512
  features:  ∑ k < 512, x(R, 512·(n mod 8) + k) · W(Q, 512·(n mod 8) + k),  W the sampled weights. The first point of
  a run starts from the zero word, so after the point at offset j of a run starting at b the accumulator holds the
  zero word plus the addends of points b, …, b + j.
-/
import proofs.«102193_j4930622456479_1_alg».proof.Proof.Gen.KernelIdeal.Value
import proofs.«102193_j4930622456479_1_alg».proof.Proof.Pieces
import proofs.«102193_j4930622456479_1_alg».proof.Proof.Payloads
import proofs.«102193_j4930622456479_1_alg».proof.Proof.Blocks

noncomputable section

open scoped BigOperators

namespace Cert.KernelIdeal.Fold

open Cert.KernelIdeal Cert.KernelIdeal.Gen Cert.SampledLinear Idealize.ShloMosaic Idealize.ShloMosaic.TcCoe Idealize.SL.Sem
open Idealize.ShloMosaic.ValueIdx Cert.KernelIdeal.Blocks Cert.KernelIdeal.Payloads

variable (m : (ℓ : Loc nD τ sig) → Buf (Elt Ideal) ℓ)

/-- The sampled weight matrix of the arrays as the region finds them. -/
abbrev Warr (c : Dev nD) : Vec Ideal S4096x4096 .f32 := weight (wmuarr m c) (wrhoarr m c) (ewarr m c)

/-- One product x(R, n) · W(Q, n) of the layer's inner sum, as a function of three naturals: zero outside the arrays. -/
def prod (c : Dev nD) (R Q n : ℕ) : EReal :=
  if h : R < 8192 ∧ Q < 4096 ∧ n < 4096 then
    xarr m c (ix2 (⟨R, h.1⟩ : Fin 8192) (⟨n, h.2.2⟩ : Fin 4096)) * Warr m c (ix2 (⟨Q, h.2.1⟩ : Fin 4096) (⟨n, h.2.2⟩ : Fin 4096))
  else 0

/-- What point n adds to the accumulator at block entry i. -/
def addend (c : Dev nD) (n : ℕ) (i : S1024x512.Idx) : EReal :=
  ∑ k : Fin 512, prod m c (1024 * (n / 64) + (i 0).val) (512 * (n / 8 % 8) + (i 1).val) (512 * (n % 8) + k.val)

/-- The accumulator update at point t, at any entry: what it held plus the point's addend. -/
theorem update_apply (c : Dev nD) (t : Fin cfg0.N) (acc : Vec Ideal S1024x512 .f32) (i : S1024x512.Idx) :
    k0_pay2 (F := Ideal) (wmublk m c t) (wrhoblk m c t) (ewblk m c t) (xblk m c t) acc i = acc i + addend m c t.val i := by
  obtain ⟨r, q, rfl⟩ : ∃ (r : Fin 1024) (q : Fin 512), i = ix2 r q := ⟨i 0, i 1, eq_ix2 i⟩
  rw [pay2_apply]
  refine congrArg (acc (ix2 r q) + ·) (Finset.sum_congr rfl fun k _ => ?_)
  have hN : t.val < 512 := lt_of_lt_of_eq t.isLt N_0
  have hb : 1024 * (t.val / 64) + r.val < 8192 ∧ 512 * (t.val / 8 % 8) + q.val < 4096 ∧ 512 * (t.val % 8) + k.val < 4096 := by
    have := r.isLt; have := q.isLt; have := k.isLt; omega
  show _ = prod m c (1024 * (t.val / 64) + r.val) (512 * (t.val / 8 % 8) + q.val) (512 * (t.val % 8) + k.val)
  unfold prod
  rw [dif_pos hb]
  have e1 := xblk_apply m c t r k (ix2 (⟨_, hb.1⟩ : Fin 8192) (⟨_, hb.2.2⟩ : Fin 4096)) rfl rfl
  have e2 := wmublk_apply m c t q k (ix2 (⟨_, hb.2.1⟩ : Fin 4096) (⟨_, hb.2.2⟩ : Fin 4096)) rfl rfl
  have e3 := wrhoblk_apply m c t q k (ix2 (⟨_, hb.2.1⟩ : Fin 4096) (⟨_, hb.2.2⟩ : Fin 4096)) rfl rfl
  have e4 := ewblk_apply m c t q k (ix2 (⟨_, hb.2.1⟩ : Fin 4096) (⟨_, hb.2.2⟩ : Fin 4096)) rfl rfl
  show xblk m c t (ix2 r k) * sample (wmublk m c t (ix2 q k)) (wrhoblk m c t (ix2 q k)) (ewblk m c t (ix2 q k))
    = xarr m c _ * sample (wmuarr m c _) (wrhoarr m c _) (ewarr m c _)
  rw [e1, e2, e3, e4]

/-- The piece lemmas at a grid point's own staging buffers and blocks, every argument spelt out. -/
theorem first_at (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) scM0_0 (Memref.isWhole_whole _) hc0 hc1
        (iblk m c 0 t) (iblk m c 1 t) (iblk m c 2 t) (iblk m c 3 t) (iblk m c 4 t) (iblk m c 5 t) (iblk m c 6 t)
      = k0_pay2 (F := Ideal) (wmublk m c t) (wrhoblk m c t) (ewblk m c t) (xblk m c t) (k0_pay1 (F := Ideal)) :=
  Pieces.acc_first (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (xblk m c t) (wmublk m c t) (wrhoblk m c t) (ewblk m c t) (bmublk m c t) (brhoblk m c t) (ebblk m c t) hc0 hc1

theorem mid_at (c : Dev nD) (t : Fin cfg0.N) (hc0 : ¬cond0_0 (grid0.coords t)) (hc1 : ¬cond0_1 (grid0.coords t))
    (acc : Vec Ideal S1024x512 .f32) :
    sout0_B_0 c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) scM0_0 (Memref.isWhole_whole _) hc0 hc1
        (iblk m c 0 t) (iblk m c 1 t) (iblk m c 2 t) (iblk m c 3 t) (iblk m c 4 t) (iblk m c 5 t) (iblk m c 6 t) acc
      = k0_pay2 (F := Ideal) (wmublk m c t) (wrhoblk m c t) (ewblk m c t) (xblk m c t) acc :=
  Pieces.acc_mid (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (xblk m c t) (wmublk m c t) (wrhoblk m c t) (ewblk m c t) (bmublk m c t) (brhoblk m c t) (ebblk m c t) hc0 hc1 acc

theorem last_at (c : Dev nD) (t : Fin cfg0.N) (hc0 : ¬cond0_0 (grid0.coords t)) (hc1 : cond0_1 (grid0.coords t))
    (acc : Vec Ideal S1024x512 .f32) :
    sout0_C_0 c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) scM0_0 (Memref.isWhole_whole _) hc0 hc1
        (iblk m c 0 t) (iblk m c 1 t) (iblk m c 2 t) (iblk m c 3 t) (iblk m c 4 t) (iblk m c 5 t) (iblk m c 6 t) acc
      = k0_pay2 (F := Ideal) (wmublk m c t) (wrhoblk m c t) (ewblk m c t) (xblk m c t) acc :=
  Pieces.acc_last (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (xblk m c t) (wmublk m c t) (wrhoblk m c t) (ewblk m c t) (bmublk m c t) (brhoblk m c t) (ebblk m c t) hc0 hc1 acc

theorem out_at (c : Dev nD) (t : Fin cfg0.N) (hc0 : ¬cond0_0 (grid0.coords t)) (hc1 : cond0_1 (grid0.coords t))
    (acc : Vec Ideal S1024x512 .f32) :
    out0_C_7 c (grid0.coords t) (ms0_0 t) (hs0_0 t) (ms0_1 t) (hs0_1 t) (ms0_2 t) (hs0_2 t) (ms0_3 t) (hs0_3 t)
        (ms0_4 t) (hs0_4 t) (ms0_5 t) (hs0_5 t) (ms0_6 t) (hs0_6 t) (ms0_7 t) (hs0_7 t) scM0_0 (Memref.isWhole_whole _) hc0 hc1
        (iblk m c 0 t) (iblk m c 1 t) (iblk m c 2 t) (iblk m c 3 t) (iblk m c 4 t) (iblk m c 5 t) (iblk m c 6 t) acc
      = k0_pay3 (F := Ideal) (bmublk m c t) (brhoblk m c t) (ebblk m c t)
          (k0_pay2 (F := Ideal) (wmublk m c t) (wrhoblk m c t) (ewblk m c t) (xblk m c t) acc) :=
  Pieces.out_last (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (xblk m c t) (wmublk m c t) (wrhoblk m c t) (ewblk m c t) (bmublk m c t) (brhoblk m c t) (ebblk m c t) hc0 hc1 acc

/-- What one point leaves in the accumulator, at an entry: at a run's first point the zero word plus the point's
    addend, whatever it held; at every other point what it held plus the point's addend. -/
theorem step_first (c : Dev nD) (n : ℕ) (h : n < cfg0.N) (h0 : n % 8 = 0) (acc : Vec Ideal S1024x512 .f32)
    (i : S1024x512.Idx) : Value.scAt0_0 m c n h acc i = zw + addend m c n i := by
  have h1 : ¬n % 8 = 7 := by omega
  unfold Value.scAt0_0
  rw [dif_pos h0, dif_neg h1]
  refine (congrFun (first_at m c ⟨n, h⟩ _ _) i).trans ?_
  rw [update_apply m c ⟨n, h⟩, pay1_apply]

theorem step_next (c : Dev nD) (n : ℕ) (h : n < cfg0.N) (h0 : ¬n % 8 = 0) (acc : Vec Ideal S1024x512 .f32)
    (i : S1024x512.Idx) : Value.scAt0_0 m c n h acc i = acc i + addend m c n i := by
  unfold Value.scAt0_0
  rw [dif_neg h0]
  by_cases h1 : n % 8 = 7
  · rw [dif_pos h1]
    exact (congrFun (last_at m c ⟨n, h⟩ _ _ acc) i).trans (update_apply m c ⟨n, h⟩ acc i)
  · rw [dif_neg h1]
    exact (congrFun (mid_at m c ⟨n, h⟩ _ _ acc) i).trans (update_apply m c ⟨n, h⟩ acc i)

/-- THE ACCUMULATOR after point t: the zero word plus the addends of the run's points up to t. -/
theorem scratch_after (c : Dev nD) (t : Fin cfg0.N) (i : S1024x512.Idx) :
    (outsAt0 m c t.val t.isLt).2 i
      = zw + ∑ s ∈ Finset.range (t.val % 8 + 1), addend m c (8 * (t.val / 8) + s) i := by
  rw [Value.soutsAt0_0_eq m c t]
  exact Pipeline.accAt_add_apply (fun n h => Value.scAt0_0 m c n h (VS0_0.read (Elt Ideal) VS0_0.junk))
    (Value.scAt0_0 m c) (fun _ => zw) (addend m c) (8 * (t.val / 8)) 7
    (fun h i => step_first m c _ h (by omega) _ i)
    (fun n h acc i hlt hle => step_next m c n h (by omega) acc i)
    (t.val % 8) (by omega) _ i

end Cert.KernelIdeal.Fold

end
-- ==== Proof.WholeArray.lean ====
/-
  The output array after the run is the layer of the argument arrays.

  At the last point of a run the output block's entry (r, q) is the accumulator plus the sampled bias. The
  accumulator there is the zero word plus the eight points' addends, which together are the inner product over
  all 4096 features of row R of x with row Q of the sampled weights (R, Q the array row and column the entry stands
  for): a sum of 4096 terms is the sum of its 8 runs of 512. So the block written back is the layer's block, the 64
  output blocks tile the 8192 × 4096 array, and the array ends holding the layer.
-/
import proofs.«102193_j4930622456479_1_alg».proof.Proof.Fold

noncomputable section

open scoped BigOperators

namespace Cert.KernelIdeal.WholeArray

open Cert.KernelIdeal Cert.KernelIdeal.Gen Cert.SampledLinear Idealize.ShloMosaic Idealize.ShloMosaic.TcCoe Idealize.SL.Sem
open Idealize.ShloMosaic.ValueIdx Cert.KernelIdeal.Blocks Cert.KernelIdeal.Payloads Cert.KernelIdeal.Fold
open Idealize.ShloMosaic.Pipeline (Dat)

variable (m : (ℓ : Loc nD τ sig) → Buf (Elt Ideal) ℓ) (ρ : Dev nD → PrngReg)

/-- The seven argument arrays as launched, each at its literal shape. -/
abbrev a0 (c : Dev nD) : Vec Ideal S8192x4096 .f32 := m ((c : Thread nD τ).loc main_arg0)
abbrev a1 (c : Dev nD) : Vec Ideal S4096x4096 .f32 := m ((c : Thread nD τ).loc main_arg1)
abbrev a2 (c : Dev nD) : Vec Ideal S4096x4096 .f32 := m ((c : Thread nD τ).loc main_arg2)
abbrev a3 (c : Dev nD) : Vec Ideal S4096 .f32 := m ((c : Thread nD τ).loc main_arg3)
abbrev a4 (c : Dev nD) : Vec Ideal S4096 .f32 := m ((c : Thread nD τ).loc main_arg4)
abbrev a5 (c : Dev nD) : Vec Ideal S4096x4096 .f32 := m ((c : Thread nD τ).loc main_arg5)
abbrev a6 (c : Dev nD) : Vec Ideal S4096 .f32 := m ((c : Thread nD τ).loc main_arg6)

/-- The layer of the seven argument arrays as launched, as contents of the result array. -/
abbrev result (c : Dev nD) : Buf (Elt Ideal) ((c : Thread nD τ).loc main_v3) :=
  layer (a0 m c) (a1 m c) (a2 m c) (a3 m c) (a4 m c) (a5 m c) (a6 m c)

/-- No host operation before the region writes the staged arguments: the region finds them as launched. -/
theorem xarr_eq (c : Dev nD) : xarr m c = a0 m c := V_main_arg0 m c
theorem Warr_eq (c : Dev nD) : Warr m c = weight (a1 m c) (a2 m c) (a5 m c) := by
  show weight (V m c main_arg1) (V m c main_arg2) (V m c main_arg5) = _
  rw [V_main_arg1, V_main_arg2, V_main_arg5]

/-- The eight addends of a run are the whole inner product: 4096 features as 8 runs of 512. -/
theorem run_sum (c : Dev nD) (b : ℕ) (hb : b % 8 = 0) (r : Fin 1024) (q : Fin 512) (I : S8192x4096.Idx)
    (hI0 : (I 0).val = 1024 * (b / 64) + r.val) (hI1 : (I 1).val = 512 * (b / 8 % 8) + q.val) :
    ∑ s ∈ Finset.range 8, addend m c (b + s) (ix2 r q)
      = ∑ i : Fin 4096, xarr m c (ix2 (I 0) i) * Warr m c (ix2 (I 1) i) := by
  have hg : ∀ i : Fin 4096, xarr m c (ix2 (I 0) i) * Warr m c (ix2 (I 1) i) = prod m c (I 0).val (I 1).val i.val := fun i => by
    unfold prod
    rw [dif_pos ⟨idx2_lt0 I, idx2_lt1 I, i.isLt⟩]
    rfl
  rw [Finset.sum_congr rfl (fun i _ => hg i), sum_features (prod m c (I 0).val (I 1).val)]
  refine Finset.sum_congr rfl fun s hs => ?_
  have hs8 : s < 8 := Finset.mem_range.mp hs
  unfold addend
  refine Finset.sum_congr rfl fun k _ => ?_
  show prod m c (1024 * ((b + s) / 64) + r.val) (512 * ((b + s) / 8 % 8) + q.val) (512 * ((b + s) % 8) + k.val)
    = prod m c (I 0).val (I 1).val (512 * s + k.val)
  have e1 : (b + s) / 64 = b / 64 := by omega
  have e2 : (b + s) / 8 % 8 = b / 8 % 8 := by omega
  have e3 : (b + s) % 8 = s := by omega
  rw [e1, e2, e3, hI0, hI1]

/-- At a run's last point the output buffer is the bias added to the accumulator the point has just written. -/
theorem out_eq (c : Dev nD) (t : Fin cfg0.N) (h0 : ¬t.val % 8 = 0) (h1 : t.val % 8 = 7) :
    (outsAt0 m c t.val t.isLt).1
      = k0_pay3 (F := Ideal) (bmublk m c t) (brhoblk m c t) (ebblk m c t) ((outsAt0 m c t.val t.isLt).2) := by
  rw [outsAt0_C m c t h0 h1]
  dsimp only
  rw [out_at m c t _ _ _, last_at m c t _ _ _]

/-- The output buffer's entry (r, q) at a run's last point is the layer at the array index that entry stands for. -/
theorem out_entry (c : Dev nD) (t : Fin cfg0.N) (h1 : t.val % 8 = 7) (r : Fin 1024) (q : Fin 512) (I : S8192x4096.Idx)
    (hI0 : (I 0).val = 1024 * (t.val / 64) + r.val) (hI1 : (I 1).val = 512 * (t.val / 8 % 8) + q.val) :
    (outsAt0 m c t.val t.isLt).1 (ix2 r q) = result m c I := by
  have h0 : ¬t.val % 8 = 0 := by omega
  rw [out_eq m c t h0 h1, pay3_apply, scratch_after, h1]
  have hsum := run_sum m c (8 * (t.val / 8)) (by omega) r q I (by omega) (by omega)
  rw [hsum, show zw = (0 : EReal) from Ideal.ofBits_zero_f32, zero_add, xarr_eq, Warr_eq]
  show _ + sample (bmublk m c t (ix2 (0 : Fin 1) q)) (brhoblk m c t (ix2 (0 : Fin 1) q)) (ebblk m c t (ix2 (0 : Fin 1) q))
    = (∑ i : Fin 4096, a0 m c (ix2 (I 0) i) * weight (a1 m c) (a2 m c) (a5 m c) (ix2 (I 1) i))
      + sample (a3 m c (ix1 (I 1))) (a4 m c (ix1 (I 1))) (a6 m c (ix1 (I 1)))
  rw [bmublk_apply m c t q (ix2 (0 : Fin 1) (I 1)) hI1, brhoblk_apply m c t q (ix2 (0 : Fin 1) (I 1)) hI1,
    ebblk_apply m c t q (ix2 (0 : Fin 1) (I 1)) hI1,
    bmurow_apply m c _ (ix1 (I 1)) rfl, brhorow_apply m c _ (ix1 (I 1)) rfl, ebrow_apply m c _ (ix1 (I 1)) rfl]

/-- WHAT A RUN'S LAST POINT WRITES BACK is its block of the layer. -/
theorem flushed_eq (c : Dev nD) (t : Fin cfg0.N) (hf : (cfg0.win 7).flush t = true) :
    (dats m 0 c).flushed 7 t = ((cfg0.win 7).blk t).view.read (Elt Ideal) (result m c) := by
  have h1 : t.val % 8 = 7 := (flush0_7 t).mp hf
  obtain ⟨-, -, -, -, -, -, -, -, -, -, -, -, -, -, e70, e71⟩ := tiles t
  rw [Value.flushed7]
  funext j
  obtain ⟨r, q, rfl⟩ : ∃ (r : Fin 1024) (q : Fin 512), j = ix2 r q := ⟨j 0, j 1, eq_ix2 j⟩
  show (outsAt0 m c t.val t.isLt).1 (ix2 r q) = result m c (((cfg0.win 7).blk t).view.emb (ix2 r q))
  refine out_entry m c t h1 r q _ ?_ ?_
  · show win0_7.index t (0 : Fin 2) * 1024 + 1 * r.val = _; omega
  · show win0_7.index t (1 : Fin 2) * 512 + 1 * q.val = _; omega

/-- An index of the result array is in point t's output block iff each coordinate is in the block's range. -/
theorem mem_blk (t : Fin cfg0.N) (i : S8192x4096.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v3).slice (win0_7.rect t)).set ↔ _
  rw [View.set_slice_whole, Rect.mem_set_unit]
  exact Iff.rfl

/-- Every index of the result array is in the output block of SOME run's last point: the one with row tile
    (row / 1024) and column tile (column / 512). -/
theorem cover (i : S8192x4096.Idx) :
    ∃ t : Fin cfg0.N, (cfg0.win 7).flush t = true ∧ i ∈ ((cfg0.win 7).blk t).view.set := by
  have hi0 := idx2_lt0 i
  have hi1 := idx2_lt1 i
  have hN : cfg0.N = 512 := N_0
  have hlt : 64 * ((i 0).val / 1024) + 8 * ((i 1).val / 512) + 7 < cfg0.N := by omega
  have hv : (⟨_, hlt⟩ : Fin cfg0.N).val = 64 * ((i 0).val / 1024) + 8 * ((i 1).val / 512) + 7 := rfl
  obtain ⟨-, -, -, -, -, -, -, -, -, -, -, -, -, -, e70, e71⟩ := tiles ⟨_, hlt⟩
  refine ⟨⟨_, hlt⟩, (flush0_7 _).mpr (by rw [hv]; omega), ?_⟩
  rw [mem_blk]
  intro a
  match a with
  | ⟨0, _⟩ =>
    show win0_7.index ⟨_, hlt⟩ (0 : Fin 2) * 1024 ≤ (i 0).val ∧ (i 0).val < win0_7.index ⟨_, hlt⟩ (0 : Fin 2) * 1024 + 1024
    rw [e70, hv]; omega
  | ⟨1, _⟩ =>
    show win0_7.index ⟨_, hlt⟩ (1 : Fin 2) * 512 ≤ (i 1).val ∧ (i 1).val < win0_7.index ⟨_, hlt⟩ (1 : Fin 2) * 512 + 512
    rw [e71, hv]; omega

/-- THE RESULT ARRAY after the run is the layer of the argument arrays. -/
theorem final (c : Dev nD) : (dats m 0 c).arrAt 7 cfg0.N = result m c :=
  (dats m 0 c).arrAt_eq_of_cover 7 (result m c) (flushed_eq m c) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.WholeArray

end
-- ==== Proof.Reference.lean ====
/-
  The reference computes the layer.

  Its term, read one operation at a time: the two softplus calls spell the entry max(ρ, 0) + log1p(exp(−|ρ − 0|))
  behind the unordered form of the never-firing guard, which is the kernel's entry (the two guards are one
  comparison on the extended reals, and −a is 0 − a); the weights and the bias are sampled entry by entry; the dot
  product contracts x and the weights along their rows over all 4096 features; the bias is broadcast over the rows
  and added.
-/
import proofs.«102193_j4930622456479_1_alg».proof.Proof.Gen.ReferenceIdeal.Read
import proofs.«102193_j4930622456479_1_alg».proof.Proof.SampledLinear

noncomputable section

open scoped BigOperators

namespace Cert.ReferenceIdeal.RefValue

open Cert.ReferenceIdeal Cert.ReferenceIdeal.Read Cert.SampledLinear Idealize.ShloMosaic Idealize.ShloMosaic.ValueIdx

/-- The reference's weight stage is the sampled weight matrix, entry by entry. -/
theorem weight_stage (x1 x2 x5 : (⟨S4096x4096, .f32⟩ : BufTy).Contents (Elt Ideal)) (i : S4096x4096.Idx) :
    val_main_v2 (F := Ideal) x1 x2 x5 i = weight x1 x2 x5 i := by
  simp only [val_main_v2_apply, val_main_v1_apply, val_main_v0_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply]
  exact congrArg (fun s => x1 i + s * x5 i) (softplus_host (x2 i))

/-- The reference's bias stage is the sampled bias, entry by entry. -/
theorem bias_stage (x3 x4 x6 : (⟨S4096, .f32⟩ : BufTy).Contents (Elt Ideal)) (i : S4096.Idx) :
    val_main_v5 (F := Ideal) x3 x4 x6 i = bias x3 x4 x6 i := by
  simp only [val_main_v5_apply, val_main_v4_apply, val_main_v3_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_call1_cst_apply]
  exact congrArg (fun s => x3 i + s * x6 i) (softplus_host (x4 i))

/-- THE REFERENCE'S RESULT is the layer of its seven arguments. -/
theorem result_is_layer (x0 : (⟨S8192x4096, .f32⟩ : BufTy).Contents (Elt Ideal))
    (x1 x2 : (⟨S4096x4096, .f32⟩ : BufTy).Contents (Elt Ideal)) (x3 x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v9 (F := Ideal) x0 x1 x2 x3 x4 x5 x6 = layer x0 x1 x2 x3 x4 x5 x6 := by
  funext i
  obtain ⟨p, q, rfl⟩ : ∃ (p : Fin 8192) (q : Fin 4096), i = ix2 p q := ⟨i 0, i 1, eq_ix2 i⟩
  rw [val_main_v9_apply, val_main_v6_apply, val_main_v8_apply, val_main_v7_apply]
  have el : ∀ k : Fin 4096, lidx_main_v6 (ix2 p q) k = ix2 p k := fun k => funext fun a => Fin.ext (by
    match a with
    | ⟨0, _⟩ => rfl
    | ⟨1, _⟩ => rfl)
  have er : ∀ k : Fin 4096, ridx_main_v6 (ix2 p q) k = ix2 q k := fun k => funext fun a => Fin.ext (by
    match a with
    | ⟨0, _⟩ => rfl
    | ⟨1, _⟩ => rfl)
  have eb : idx_main_v7 (idx_main_v8 (ix2 p q)) = ix1 q := funext fun a => Fin.ext (by
    match a with
    | ⟨0, _⟩ => rfl)
  show (∑ k : Fin 4096, x0 (lidx_main_v6 (ix2 p q) k) * val_main_v2 (F := Ideal) x1 x2 x5 (ridx_main_v6 (ix2 p q) k))
      + val_main_v5 (F := Ideal) x3 x4 x6 (idx_main_v7 (idx_main_v8 (ix2 p q)))
    = (∑ k : Fin 4096, x0 (ix2 p k) * weight x1 x2 x5 (ix2 q k)) + bias x3 x4 x6 (ix1 q)
  exact congrArg₂ (· + ·) (Finset.sum_congr rfl fun k _ => by rw [el, er, weight_stage])
    (by rw [eb, bias_stage])

end Cert.ReferenceIdeal.RefValue

end
-- ==== Proof.lean ====
/-
  A Bayesian linear layer: the kernel and its jnp reference compute one function over the extended reals.

  Both programs SAMPLE the weights and the bias entry by entry, parameter = mean + softplus(pre-scale) · noise with
  softplus(ρ) = max(ρ, 0) + log(1 + e^(-|ρ|)), and apply the linear layer  y(t, o) = ∑ i < 4096, x(t, i) · W(o, i) + b(o).
  They differ only in how the entry is spelt (an ordered against an unordered form of a never-firing "differs from
  itself" guard; 0 − a against −a; the matrix unit's and the host's exponential and log1p, one function each on the
  extended reals) and in how the inner sum is grouped: the reference contracts all 4096 features at once, the kernel
  accumulates, over a run of eight grid points, the partial products of eight blocks of 512 features into a block
  that starts from zero, and adds the bias at the run's last point. A format change is the identity on the extended
  reals, and addition there is associative and commutative, so the two groupings agree with no finiteness assumed:
  the precondition is never opened.

  The three frames are the generated frame runs (the reference's is its generated run with the result dropped); the
  ideal pass rewrote nothing, so the kernel's idealization is the kernel's own text; the value claim sets the kernel's
  run (the result array at the layer of the arguments) beside the reference's run (its result term is the layer).
-/
import proofs.«102193_j4930622456479_1_alg».proof.Defs
import proofs.«102193_j4930622456479_1_alg».proof.Proof.Gen.Kernel
import proofs.«102193_j4930622456479_1_alg».proof.Proof.Gen.Kernel.Skeleton
import proofs.«102193_j4930622456479_1_alg».proof.Proof.Gen.Kernel.Launch
import proofs.«102193_j4930622456479_1_alg».proof.Proof.Gen.Kernel.Points
import proofs.«102193_j4930622456479_1_alg».proof.Proof.Gen.Kernel.Frame
import proofs.«102193_j4930622456479_1_alg».proof.Proof.Gen.KernelIdeal
import proofs.«102193_j4930622456479_1_alg».proof.Proof.Gen.KernelIdeal.Skeleton
import proofs.«102193_j4930622456479_1_alg».proof.Proof.Gen.KernelIdeal.Launch
import proofs.«102193_j4930622456479_1_alg».proof.Proof.Gen.KernelIdeal.Points
import proofs.«102193_j4930622456479_1_alg».proof.Proof.Gen.KernelIdeal.Frame
import proofs.«102193_j4930622456479_1_alg».proof.Proof.Gen.KernelIdeal.Value
import proofs.«102193_j4930622456479_1_alg».proof.Proof.Gen.ReferenceIdeal
import proofs.«102193_j4930622456479_1_alg».proof.Proof.Gen.ReferenceIdeal.Run
import proofs.«102193_j4930622456479_1_alg».proof.Proof.Gen.ReferenceIdeal.Read
import proofs.«102193_j4930622456479_1_alg».proof.Proof.Gen.Pre_finite_inputs
import proofs.«102193_j4930622456479_1_alg».proof.Proof.WholeArray
import proofs.«102193_j4930622456479_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs, faults nowhere, and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the layer of those arguments in their
    result arrays: the kernel by its accumulation over the eight blocks of features, the reference by its one
    contraction. -/
theorem algebraic : Cert.algebraic_KernelIdeal_ReferenceIdeal := by
  intro m ρ m' ρ' _ hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v9_eq, Cert.ReferenceIdeal.RefValue.result_is_layer, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
